-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S128 : Shape := ⟨1, ![128]⟩
abbrev S_ : Shape := ⟨0, ![]⟩
abbrev S1x128 : Shape := ⟨2, ![1, 128]⟩
abbrev S2x1x128 : Shape := ⟨3, ![2, 1, 128]⟩
abbrev S16384x128 : Shape := ⟨2, ![16384, 128]⟩
abbrev S1x1x128 : Shape := ⟨3, ![1, 1, 128]⟩

abbrev nBuf : Space → Nat
  | .hbm => 38
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S262144x128, .f32⟩
  | .hbm, ⟨2, _⟩ => ⟨S128, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S_, .i32⟩
  | .hbm, ⟨18, _⟩ => ⟨S_, .i1⟩
  | .hbm, ⟨19, _⟩ => ⟨S128, .i1⟩
  | .hbm, ⟨20, _⟩ => ⟨S128, .i1⟩
  | .hbm, ⟨21, _⟩ => ⟨S128, .i1⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S2x1x128, .f32⟩
  | .hbm, ⟨36, _⟩ => ⟨S_, .f32⟩
  | .hbm, ⟨37, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S1x128, .f32⟩
  | .local _ .vmem, ⟨3, _⟩ => ⟨S1x1x128, .f32⟩
  | .local _ .vmem, ⟨4, _⟩ => ⟨S1x1x128, .f32⟩
  | .local _ .vmem, ⟨5, _⟩ => ⟨S1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst_2 : Ref sig .tc := ⟨.hbm, 36, rfl⟩
abbrev main_v9 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  bcast_S_S128 : S_.BroadcastsInDim S128 (![] : Fin 0 → Fin S128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  broadcasts_S1x128_S16384x128 : S1x128.Broadcasts S16384x128
  reduces_S16384x128_S128 : S16384x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S2x1x128_S_d0_1_2 : S2x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S33554432, .i32⟩
  | .hbm, ⟨9, _⟩ => ⟨S33554432, .i32⟩
  | .hbm, ⟨10, _⟩ => ⟨S_, .i32⟩
  | .hbm, ⟨11, _⟩ => ⟨S33554432, .i32⟩
  | .hbm, ⟨12, _⟩ => ⟨S33554432, .i1⟩
  | .hbm, ⟨13, _⟩ => ⟨S_, .i32⟩
  | .hbm, ⟨14, _⟩ => ⟨S33554432, .i32⟩
  | .hbm, ⟨15, _⟩ => ⟨S33554432, .i1⟩
  | .hbm, ⟨16, _⟩ => ⟨S_, .i32⟩
  | .hbm, ⟨17, _⟩ => ⟨S_, .i1⟩
  | .hbm, ⟨18, _⟩ => ⟨S33554432, .i1⟩
  | .hbm, ⟨19, _⟩ => ⟨S33554432, .i1⟩
  | .hbm, ⟨20, _⟩ => ⟨S33554432, .i1⟩
  | .hbm, ⟨21, _⟩ => ⟨S33554432, .i32⟩
  | .hbm, ⟨22, _⟩ => ⟨S33554432, .i32⟩
  | .hbm, ⟨23, _⟩ => ⟨S33554432, .i32⟩
  | .hbm, ⟨24, _⟩ => ⟨S_, .i32⟩
  | .hbm, ⟨25, _⟩ => ⟨S33554432, .i32⟩
  | .hbm, ⟨26, _⟩ => ⟨S33554432, .i1⟩
  | .hbm, ⟨27, _⟩ => ⟨S_, .f32⟩
  | .hbm, ⟨28, _⟩ => ⟨S_, .f32⟩
  | .hbm, ⟨29, _⟩ => ⟨S33554432, .f32⟩
  | .hbm, ⟨30, _⟩ => ⟨S33554432, .f32⟩
  | .hbm, ⟨31, _⟩ => ⟨S33554432, .f32⟩
  | .hbm, ⟨32, _⟩ => ⟨S33554432, .f32⟩
  | .hbm, ⟨33, _⟩ => ⟨S33554432, .f32⟩
  | .hbm, ⟨34, _⟩ => ⟨S33554432, .f32⟩
  | .hbm, ⟨35, _⟩ => ⟨S_, .f32⟩
  | .hbm, ⟨36, _⟩ => ⟨S33554432, .f32⟩
  | .hbm, ⟨37, _⟩ => ⟨S33554432, .f32⟩
  | .hbm, ⟨38, _⟩ => ⟨S_, .f32⟩
  | .hbm, ⟨39, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_cst_3 : Ref sig .tc := ⟨.hbm, 38, rfl⟩
abbrev main_v10 : Ref sig .tc := ⟨.hbm, 39, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.KerPieces.lean ====
/-
  What each control case of the kernel body leaves in the accumulator and in the output block, as values.

  The body's stores go through whole-block rectangles at zero offsets, so the last store into a buffer decides its
  contents and a load after a store reads the stored value back. With `acc' = k0_pay2 x ns acc` the update
  "`acc` plus the lane sums of `max (x * ns) 0`":
    case A (first step of a core's run): the accumulator is reset to `k0_pay1` (zeros), read back, and updated;
    case B (a middle step): the accumulator the step before left is updated;
    case C (last step): the same update, and the updated accumulator, read back, is stored as the output block
      (`k0_pay3`: the same row with a leading unit axis).
  All of it holds for any float values.
-/
import proofs.«402991_j19370302505302_3_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The zero offsets of a rank-2 and of a rank-3 whole-block rectangle. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Case A leaves the update of the freshly reset accumulator. -/
theorem acc_A (c : Dev nD) (i : grid0.Coords) (arg2 : Memref sig .tc .vmem S16384x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 : Vec F S16384x128 .f32) (x1 : Vec F S1x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg5.read_unread,
    View.ld_unit_zero (S := S16384x128) hz2, View.ld_unit_zero (S := S1x128) hz2]

/-- Case B leaves the update of the accumulator the step before left. -/
theorem acc_B (c : Dev nD) (i : grid0.Coords) (arg2 : Memref sig .tc .vmem S16384x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 : Vec F S16384x128 .f32) (x1 : Vec F S1x128 .f32) (xs0 : Vec F S1x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S16384x128) hz2, View.ld_unit_zero (S := S1x128) hz2]

/-- Case C leaves the same update in the accumulator … -/
theorem acc_C (c : Dev nD) (i : grid0.Coords) (arg2 : Memref sig .tc .vmem S16384x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 : Vec F S16384x128 .f32) (x1 : Vec F S1x128 .f32) (xs0 : Vec F S1x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S16384x128) hz2, View.ld_unit_zero (S := S1x128) hz2]

/-- … and stores it, read back, as the output block. -/
theorem out_C (c : Dev nD) (i : grid0.Coords) (arg2 : Memref sig .tc .vmem S16384x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 : Vec F S16384x128 .f32) (x1 : Vec F S1x128 .f32) (xs0 : Vec F S1x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x128) _ hz2]
  simp only [View.readAt_eq_ld, harg2.read_unread, harg3.read_unread, harg5.read_unread,
    View.ld_unit_zero (S := S16384x128) hz2, View.ld_unit_zero (S := S1x128) hz2]

end Cert.KernelIdeal.Pieces

end
-- ==== Proof.KerPay.lean ====
/-
  The body's three stored values read at an index, on the extended reals.

  `k0_pay1` is the zero row. `k0_pay2 x ns acc` is, at lane `q`, `acc q` plus the sum over the block's 16384 rows `r`
  of `max (x r q * ns q) 0`: the row of factors is broadcast down the rows, the product and the maximum with zero are
  elementwise, and the reduction over the row axis is a plain sum at each lane. `k0_pay3 v` is `v` with a leading
  unit axis.
-/
import proofs.«402991_j19370302505302_3_alg».proof.Proof.Gen.KernelIdeal.Skeleton
import Idealize.ShloMosaic.Lib.IdealHost
import Idealize.ShloMosaic.Lib.ValueLayout
import Idealize.ShloMosaic.Lib.Pipeline.Value

noncomputable section

namespace Cert.KernelIdeal.Pay

open Idealize.ShloMosaic Idealize.ShloMosaic.ValueIdx
open Cert.KernelIdeal Cert.KernelIdeal.Gen

/-- The reset value is zero at every lane. -/
theorem pay1_apply (i : S1x128.Idx) : k0_pay1 (F := Ideal) i = 0 := by
  unfold k0_pay1
  rw [shapeCast_self]
  show Ideal.ofBits .f32 0x00000000#32 = 0
  exact Ideal.ofBits_zero_f32

/-- The row-axis sum of a block at lane `q` is the sum of the lane's entries over the 16384 rows. -/
theorem lane_sum (src : FVec Ideal S16384x128 .f32) (h : S16384x128.Reduces [0] S128) (hφ : FKind.Formats .f32)
    (hacc : (0x00000000#32 : BitVec 32) = 0x00000000#32) (q : Fin 128) :
    multiReduction .add [0] S128 src 0x00000000#32 h hφ hacc (ix1 q) = ∑ r : Fin 16384, src (ix2 r q) :=
  (Ideal.multiReduction_add_single src 0x00000000#32 h hφ hacc (ix1 q)).trans
    (Fintype.sum_congr _ _ fun r => congrArg src (funext fun a => by
      match a with
      | ⟨0, _⟩ => rfl
      | ⟨1, _⟩ => rfl))

/-- The accumulator's update at lane `q`: what was there plus the block's lane sum of `max (x * ns) 0`. -/
theorem pay2_apply (x0 : Vec Ideal S16384x128 .f32) (x1 acc : Vec Ideal S1x128 .f32) (u : Fin 1) (q : Fin 128) :
    k0_pay2 x0 x1 acc (ix2 u q)
      = acc (ix2 u q) + ∑ r : Fin 16384, max (x0 (ix2 r q) * x1 (ix2 (0 : Fin 1) q)) 0 := by
  unfold k0_pay2
  simp only [shapeCast_self]
  rw [addf_apply, shapeCast_a_1a_apply]
  refine congrArg (acc (ix2 u q) + ·) ((lane_sum _ _ _ _ q).trans (Fintype.sum_congr _ _ fun r => ?_))
  rw [maximumf_apply, mulf_apply, broadcastTo_1b_ab_apply, broadcast_apply]
  show max _ (Ideal.ofBits .f32 0x00000000#32) = _
  rw [Ideal.ofBits_zero_f32]

/-- The output block is the accumulator's row under a leading unit axis. -/
theorem pay3_apply (v : Vec Ideal S1x128 .f32) (a b : Fin 1) (q : Fin 128) :
    k0_pay3 v (ix3 a b q) = v (ix2 (0 : Fin 1) q) := by
  unfold k0_pay3
  refine shapeCast_apply v _ _ _ ?_
  rw [Shape.rowMajor_val_two, Shape.rowMajor_val_three]
  have ha : a.val = 0 := by omega
  have hb : b.val = 0 := by omega
  show 0 * 128 + q.val = (a.val * 1 + b.val) * 128 + q.val
  rw [ha, hb]

end Cert.KernelIdeal.Pay

end
-- ==== Proof.KerAcc.lean ====
/-
  The accumulator a core carries through its eight steps, as a sum.

  After grid point `t` the carried row holds: at the first step of a run (`t % 8 = 0`) the update of the zero row,
  at every other step the update of what the step before left. An update adds, at each lane, that step's lane sum of
  `max (x * ns) 0` over its block's rows — the step's addend. So after step `t` the row is, lane by lane, the sum of the
  addends of the steps `8 * (t / 8) … t` of its run, in the order the steps ran; no enumeration of the grid is needed.
-/
import proofs.«402991_j19370302505302_3_alg».proof.Proof.KerPieces
import proofs.«402991_j19370302505302_3_alg».proof.Proof.KerPay

noncomputable section

namespace Cert.KernelIdeal.Acc

open Idealize.ShloMosaic Idealize.ShloMosaic.TcCoe Idealize.SL.Sem Idealize.ShloMosaic.ValueIdx
open Idealize.ShloMosaic.Pipeline (accAt eq_accAt_of_mod accAt_add_apply)
open Cert.KernelIdeal Cert.KernelIdeal.Gen

variable (m : (ℓ : Loc nD τ sig) → Buf (Elt Ideal) ℓ)

/-- The input block and the factor block at point `n`, under their literal types. -/
abbrev xblk (c : Dev nD) (n : ℕ) (h : n < cfg0.N) : Vec Ideal S16384x128 .f32 := iblk m c 0 ⟨n, h⟩
abbrev nblk (c : Dev nD) (n : ℕ) (h : n < cfg0.N) : Vec Ideal S1x128 .f32 := iblk m c 1 ⟨n, h⟩

/-- The carried row after point `n`. -/
abbrev rowAfter (c : Dev nD) (n : ℕ) (h : n < cfg0.N) : Vec Ideal S1x128 .f32 := (outsAt0 m c n h).2

/-- The update at point `n` of a row `acc`. -/
abbrev update (c : Dev nD) (n : ℕ) (h : n < cfg0.N) (acc : Vec Ideal S1x128 .f32) : Vec Ideal S1x128 .f32 :=
  k0_pay2 (xblk m c n h) (nblk m c n h) acc

/-- At the first step of a run the row is the update of the zero row. -/
theorem row_first (c : Dev nD) (n : ℕ) (h : n < cfg0.N) (h8 : n % 8 = 0) :
    rowAfter m c n h = update m c n h (k0_pay1 (F := Ideal)) := by
  have h7 : ¬(⟨n, h⟩ : Fin cfg0.N).val % 8 = 7 := by dsimp only; omega
  show (outsAt0 m c n h).2 = _
  rw [outsAt0_A m c ⟨n, h⟩ h8 h7]
  dsimp only
  exact Pieces.acc_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _)
    ((hcond0_0 ⟨n, h⟩).mpr h8) (fun hh => h7 ((hcond0_1 ⟨n, h⟩).mp hh)) (iblk m c 0 ⟨n, h⟩) (iblk m c 1 ⟨n, h⟩)

/-- At every other step it is the update of what the step before left. -/
theorem row_next (c : Dev nD) (n : ℕ) (h : n + 1 < cfg0.N) (h8 : ¬(n + 1) % 8 = 0) :
    rowAfter m c (n + 1) h = update m c (n + 1) h (rowAfter m c n (Nat.lt_of_succ_lt h)) := by
  show (outsAt0 m c (n + 1) h).2 = _
  by_cases h7 : (n + 1) % 8 = 7
  · rw [outsAt0_C m c ⟨n + 1, h⟩ h8 h7]
    dsimp only
    exact Pieces.acc_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
      (fun hh => h8 ((hcond0_0 ⟨n + 1, h⟩).mp hh)) ((hcond0_1 ⟨n + 1, h⟩).mpr h7) (iblk m c 0 ⟨n + 1, h⟩) (iblk m c 1 ⟨n + 1, h⟩)
      (outsAt0 m c n (Nat.lt_of_succ_lt h)).2
  · rw [outsAt0_B m c ⟨n + 1, h⟩ h8 h7]
    dsimp only
    exact Pieces.acc_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
      (fun hh => h8 ((hcond0_0 ⟨n + 1, h⟩).mp hh)) (fun hh => h7 ((hcond0_1 ⟨n + 1, h⟩).mp hh)) (iblk m c 0 ⟨n + 1, h⟩) (iblk m c 1 ⟨n + 1, h⟩)
      (outsAt0 m c n (Nat.lt_of_succ_lt h)).2

/-- The lane of a row index. -/
def lane (i : S1x128.Idx) : Fin 128 := i 1

theorem lane_ix2 (u : Fin 1) (q : Fin 128) : lane (ix2 u q) = q := rfl

/-- Step `n`'s addend at lane `q`: the lane sum over its block's rows of `max (x * ns) 0` (zero past the grid,
    where no step is). -/
def addend (c : Dev nD) (n : ℕ) (q : Fin 128) : EReal :=
  if h : n < cfg0.N then
    ∑ r : Fin 16384, max (xblk m c n h (ix2 r q) * nblk m c n h (ix2 (0 : Fin 1) q)) 0
  else 0

/-- An update adds the step's addend at each lane. -/
theorem update_apply (c : Dev nD) (n : ℕ) (h : n < cfg0.N) (acc : Vec Ideal S1x128 .f32) (i : S1x128.Idx) :
    update m c n h acc i = acc i + addend m c n (lane i) := by
  obtain ⟨u, q, rfl⟩ : ∃ (u : Fin 1) (q : Fin 128), i = ix2 u q := ⟨i 0, i 1, eq_ix2 i⟩
  rw [lane_ix2]
  unfold addend
  rw [dif_pos h]
  exact Pay.pay2_apply (xblk m c n h) (nblk m c n h) acc u q

/-- After point `t` the carried row is, at each lane, the sum of the addends of its run's steps so far. -/
theorem rowAfter_apply (c : Dev nD) (t : ℕ) (ht : t < cfg0.N) (i : S1x128.Idx) :
    rowAfter m c t ht i = 0 + ∑ s ∈ Finset.range (t % 8 + 1), addend m c (8 * (t / 8) + s) (lane i) := by
  have h' : 8 * (t / 8) + t % 8 < cfg0.N := by rw [Nat.div_add_mod]; exact ht
  rw [eq_accAt_of_mod (rowAfter m c) 8 (fun n h => update m c n h (k0_pay1 (F := Ideal))) (update m c)
      (row_first m c) (row_next m c) (by omega) t ht h']
  refine accAt_add_apply (fun n h => update m c n h (k0_pay1 (F := Ideal))) (update m c) (fun _ => 0)
    (fun n i => addend m c n (lane i)) (8 * (t / 8)) 7 (fun h i => ?_) (fun n h acc i _ _ => update_apply m c n h acc i)
    (t % 8) (by omega) h' i
  rw [update_apply, Pay.pay1_apply]

end Cert.KernelIdeal.Acc

end
-- ==== Proof.Parity.lean ====
/-
  The parity test both programs compute on a position's 32-bit word.

  `jnp`'s `n % 2` is printed as the truncating remainder followed by the correction that turns it into the floor
  remainder (add the divisor when the remainder is nonzero and its sign differs from the divisor's), with the divisor
  itself guarded against zero. On a word below `2 ^ 31` (a nonnegative position) the truncating remainder by 2 is
  already `0` or `1`, the correction does nothing, and the test "remainder = 0" says exactly that the position is even.
-/
import Idealize.ShloMosaic.Lib.Affine

namespace Cert.OscLoss

open Idealize.ShloMosaic

/-- The words computed from a position's word `w`: divisor `2` guarded against zero, truncating remainder,
    floor correction, comparison with zero. -/
def evenBit (w : BitVec 32) : BitVec 1 :=
  let d : BitVec 32 := Scalar.select (IntOp.cmpi .eq (2#32 : BitVec 32) 0#32) 1#32 2#32
  let r : BitVec 32 := IntOp.remsi .host w d
  let fix : BitVec 1 :=
    IntOp.andi (IntOp.cmpi .ne (IntOp.cmpi .slt r 0#32) (IntOp.cmpi .slt d 0#32)) (IntOp.cmpi .ne r 0#32)
  IntOp.cmpi .eq (Scalar.select fix (IntOp.addi r d) r) 0#32

/-- The guarded divisor is `2`. -/
theorem guarded_two : Scalar.select (IntOp.cmpi .eq (2#32 : BitVec 32) 0#32) 1#32 (2#32 : BitVec 32) = 2#32 := by decide

/-- When the truncating remainder is `0` or `1` the correction leaves it alone. -/
theorem fix_of_small (r : BitVec 32) (h : r = 0#32 ∨ r = 1#32) :
    IntOp.cmpi .eq (Scalar.select
      (IntOp.andi (IntOp.cmpi .ne (IntOp.cmpi .slt r 0#32) (IntOp.cmpi .slt (2#32 : BitVec 32) 0#32)) (IntOp.cmpi .ne r 0#32))
      (IntOp.addi r 2#32) r) 0#32 = IntOp.cmpi .eq r 0#32 := by
  rcases h with rfl | rfl <;> decide

/-- On a nonnegative position below `2 ^ 31` the test is set exactly at the even positions. -/
theorem evenBit_ofNat (n : ℕ) (hn : n < 2 ^ 31) :
    evenBit (BitVec.ofNat 32 n) = if n % 2 = 0 then 1#1 else 0#1 := by
  have hN : (BitVec.ofNat 32 n).toNat = n := by rw [BitVec.toNat_ofNat]; omega
  have hr : (IntOp.remsi .host (BitVec.ofNat 32 n) (BitVec.ofNat 32 2)).toNat = n % 2 := by
    rw [IntOp.toNat_remsi .host (by rw [hN]; omega) 2 (by omega) (by omega), hN]
  unfold evenBit
  simp only [guarded_two]
  have hsmall : IntOp.remsi .host (BitVec.ofNat 32 n) 2#32 = 0#32 ∨ IntOp.remsi .host (BitVec.ofNat 32 n) 2#32 = 1#32 := by
    rcases Nat.mod_two_eq_zero_or_one n with h | h
    · left; apply BitVec.eq_of_toNat_eq; rw [show (2#32 : BitVec 32) = BitVec.ofNat 32 2 from rfl, hr, h]; rfl
    · right; apply BitVec.eq_of_toNat_eq; rw [show (2#32 : BitVec 32) = BitVec.ofNat 32 2 from rfl, hr, h]; rfl
  rw [fix_of_small _ hsmall]
  rcases Nat.mod_two_eq_zero_or_one n with h | h
  · have : IntOp.remsi .host (BitVec.ofNat 32 n) 2#32 = 0#32 := by
      apply BitVec.eq_of_toNat_eq; rw [show (2#32 : BitVec 32) = BitVec.ofNat 32 2 from rfl, hr, h]; rfl
    rw [this, if_pos h]; decide
  · have : IntOp.remsi .host (BitVec.ofNat 32 n) 2#32 = 1#32 := by
      apply BitVec.eq_of_toNat_eq; rw [show (2#32 : BitVec 32) = BitVec.ofNat 32 2 from rfl, hr, h]; rfl
    rw [this, if_neg (by omega)]; decide

end Cert.OscLoss
-- ==== Proof.ParityVec.lean ====
/-
  The parity mask as both programs compute it on an array of position words, at any shape.

  The mask is `jnp`'s `pos % 2 == 0`: the divisor `2` guarded against zero and broadcast, the truncating remainder,
  the floor correction, and the comparison with a broadcast zero — every step elementwise, every broadcast that of a
  scalar. So at an index the mask is the scalar test `evenBit` of the position word there.
-/
import proofs.«402991_j19370302505302_3_alg».proof.Proof.Parity
import Idealize.ShloMosaic.PureOps

namespace Cert.OscLoss

open Idealize.ShloMosaic

/-- The scalar shape. -/
abbrev S0 : Shape := ⟨0, ![]⟩

variable {s : Shape}

/-- The array of words `pos % 2` in `jnp`'s floor convention, operation by operation. -/
def floorMod2 (hb : S0.BroadcastsInDim s (![] : Fin 0 → Fin s.rank)) (pos : IVec s 32) : IVec s 32 :=
  let d0 : IVec S0 32 := id (constantI S0 32 2#32)
  let v2 : IVec S0 32 := select (cmpi .eq d0 (constantI S0 32 0#32)) (constantI S0 32 1#32) d0
  let v4 : IVec s 32 := Host.remsi pos (broadcastInDim s ![] hb v2)
  let v6 : IVec s 1 := cmpi .ne v4 (broadcastInDim s ![] hb (constantI S0 32 0#32))
  let v8 : IVec s 1 := cmpi .slt v4 (broadcastInDim s ![] hb (constantI S0 32 0#32))
  let v10 : IVec s 1 := broadcastInDim s ![] hb (cmpi .slt v2 (constantI S0 32 0#32))
  let v12 : IVec s 1 := andi (cmpi .ne v8 v10) v6
  select v12 (addi v4 (broadcastInDim s ![] hb v2)) v4

/-- The mask `pos % 2 == 0`. -/
def evenMask (hb : S0.BroadcastsInDim s (![] : Fin 0 → Fin s.rank)) (pos : IVec s 32) : IVec s 1 :=
  cmpi .eq (floorMod2 hb pos) (broadcastInDim s ![] hb (constantI S0 32 0#32))

/-- At an index the mask is the scalar parity test of the position word there. -/
theorem evenMask_apply (hb : S0.BroadcastsInDim s (![] : Fin 0 → Fin s.rank)) (pos : IVec s 32) (i : s.Idx) :
    evenMask hb pos i = evenBit (pos i) := rfl

end Cert.OscLoss
-- ==== Proof.SumLayout.lean ====
/-
  Sums over a flat index re-laid as nested sums over its row-major coordinates.

  A position `n < A * B` is `a * B + b` with `a < A`, `b < B` in exactly one way, so a sum over the flat range is
  the iterated sum over the two coordinates; applied three times, a position below `2 * 8 * 16384 * 128` is
  `((c * 8 + s) * 16384 + r) * 128 + q`, and since addition in a commutative monoid may be reordered freely the
  lane coordinate `q` can be summed outermost but one. Nothing here needs the summands to be finite.
-/
import Mathlib.Algebra.BigOperators.Intervals
import Mathlib.Algebra.BigOperators.Fin

namespace Cert.OscLoss

open Finset

variable {M : Type*} [AddCommMonoid M]

/-- A sum over `range (A * B)` is the sum over `a < A` of the sums over `b < B` at position `a * B + b`. -/
theorem sum_range_mul (A B : ℕ) (f : ℕ → M) :
    ∑ n ∈ range (A * B), f n = ∑ a ∈ range A, ∑ b ∈ range B, f (a * B + b) := by
  induction A with
  | zero => simp
  | succ A ih =>
    rw [Nat.succ_mul, sum_range_add, ih, sum_range_succ]

/-- The flat sum over `2 * 8 * 16384 * 128` positions, laid out as core `c`, lane `q`, step `s`, row `r`:
    position `((c * 8 + s) * 16384 + r) * 128 + q`. -/
theorem sum_flat_eq_core_lane_step_row (f : ℕ → M) :
    ∑ n ∈ range 33554432, f n
      = ∑ c ∈ range 2, ∑ q ∈ range 128, ∑ s ∈ range 8, ∑ r ∈ range 16384,
          f (((c * 8 + s) * 16384 + r) * 128 + q) := by
  rw [show (33554432 : ℕ) = 262144 * 128 from rfl, sum_range_mul 262144 128 f,
    show (262144 : ℕ) = 16 * 16384 from rfl, sum_range_mul 16 16384 (fun R => ∑ q ∈ range 128, f (R * 128 + q)),
    show (16 : ℕ) = 2 * 8 from rfl,
    sum_range_mul 2 8 (fun T => ∑ r ∈ range 16384, ∑ q ∈ range 128, f ((T * 16384 + r) * 128 + q))]
  refine sum_congr rfl fun c _ => ?_
  -- bring the lane sum outward past the row sum, then past the step sum
  rw [show (∑ s ∈ range 8, ∑ r ∈ range 16384, ∑ q ∈ range 128, f (((c * 8 + s) * 16384 + r) * 128 + q))
        = ∑ s ∈ range 8, ∑ q ∈ range 128, ∑ r ∈ range 16384, f (((c * 8 + s) * 16384 + r) * 128 + q) from
      sum_congr rfl fun s _ => sum_comm]
  exact sum_comm

end Cert.OscLoss
-- ==== Proof.Spec.lean ====
/-
  The quantity both programs compute, and the laws that join their two spellings of it.

  With `negSign n = -1` at even positions and `1` at odd ones, position `n` contributes `max (x n * negSign n) 0`,
  and the loss is the sum of the contributions over all `2 ^ 25` positions. The reference spells a contribution
  `max (-(sign n * x n)) 0` with `sign n = -negSign n`; the two agree on every extended real because `-(1 * x) = x * -1`
  and `-(-1 * x) = x * 1` hold there without any finiteness. The kernel sums the same contributions in another order,
  which a commutative monoid allows (SumLayout).
-/
import proofs.«402991_j19370302505302_3_alg».proof.Proof.SumLayout
import Idealize.ShloMosaic.Lib.IdealHost

noncomputable section

namespace Cert.OscLoss

open Idealize.ShloMosaic Idealize.ShloMosaic.ValueIdx Finset

/-! ## The two sign patterns as extended reals -/

/-- The f32 pattern `0xBF800000` is minus one. -/
theorem ofBits_neg_one_f32 : Ideal.ofBits .f32 0xBF800000#32 = -1 := by
  have h : Ideal.ofBits .f32 0xBF800000#32 = ((-(1 : ℝ)) : EReal) := by
    simp [Ideal.ofBits, Ideal.ieee, -EReal.coe_mul, -EReal.coe_neg]; norm_num
  rw [h, EReal.coe_one]

/-! ## The loss -/

/-- The factor at position `n`: `-1` where `n` is even, `1` where it is odd. -/
def negSign (n : ℕ) : EReal := if n % 2 = 0 then -1 else 1

/-- The factor only depends on the position's parity, so on the lane `q` of a position `R * 128 + q`. -/
theorem negSign_lane (R q : ℕ) : negSign (R * 128 + q) = negSign q := by
  unfold negSign
  have : (R * 128 + q) % 2 = q % 2 := by omega
  rw [this]

/-- Position `n`'s contribution. -/
def contrib (x : ℕ → EReal) (n : ℕ) : EReal := max (x n * negSign n) 0

/-- The loss: all `2 ^ 25` contributions summed. -/
def lossOf (x : ℕ → EReal) : EReal := ∑ n ∈ range 33554432, contrib x n

/-- An array over the flat positions as a function of the position (zero past the end, which no sum reaches). -/
def flat (x : (⟨1, ![33554432]⟩ : Shape).Idx → EReal) (n : ℕ) : EReal :=
  if h : n < 33554432 then x (ix1 ⟨n, h⟩) else 0

theorem flat_apply (x : (⟨1, ![33554432]⟩ : Shape).Idx → EReal) (k : Fin 33554432) : flat x k.val = x (ix1 k) := by
  unfold flat; rw [dif_pos k.isLt]

/-- The reference's spelling of a contribution: the sign selected on "the position is even", the product negated. -/
theorem contrib_eq_neg_sign_mul (x : EReal) (n : ℕ) :
    max (-((if n % 2 = 0 then (1 : EReal) else -1) * x)) 0 = max (x * negSign n) 0 := by
  unfold negSign
  split
  · rw [one_mul, mul_neg, mul_one]
  · rw [neg_mul, one_mul, neg_neg, mul_one]

/-! ## Sums over index sets as sums over coordinates -/

/-- A rank-1 index set is its coordinate's range … -/
def idxEquiv1 {n : ℕ} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Fintype.sum_congr _ _ fun a => ?_
  rw [Fintype.sum_prod_type]
  rfl

/-- The loss as the sum over the array's index set of the contributions read at each index. -/
theorem sum_idx_contrib (x : (⟨1, ![33554432]⟩ : Shape).Idx → EReal) :
    ∑ i : (⟨1, ![33554432]⟩ : Shape).Idx, max (x i * negSign (i 0).val) 0 = lossOf (flat x) := by
  rw [sum_idx1, lossOf, Finset.sum_range (fun n => contrib (flat x) n)]
  refine Fintype.sum_congr _ _ fun k => ?_
  unfold contrib
  rw [flat_apply]

/-- The loss as the kernel lays it out: core `c`, lane `q`, step `s`, row `r`. -/
theorem lossOf_layout (x : ℕ → EReal) :
    lossOf x = ∑ c ∈ range 2, ∑ q ∈ range 128, ∑ s ∈ range 8, ∑ r ∈ range 16384,
      contrib x (((c * 8 + s) * 16384 + r) * 128 + q) :=
  sum_flat_eq_core_lane_step_row (contrib x)

end Cert.OscLoss

end
-- ==== Proof.KerBlocks.lean ====
/-
  What the region reads, in terms of the argument array.

  Before the region the host reshapes the flat input to `[262144, 128]` (row `R`, lane `q` is position `R * 128 + q`) and
  builds the row of factors: `-1` where the lane is even, `1` where it is odd (the parity mask of the lane positions
  selecting between the two constants, then a leading unit axis). Grid point `t` stages rows `t * 16384 …` of the
  reshaped input (its block index is `t` on the row axis) and, at every point, the one row of factors.
-/
import proofs.«402991_j19370302505302_3_alg».proof.Proof.Gen.KernelIdeal.Frame
import proofs.«402991_j19370302505302_3_alg».proof.Proof.ParityVec
import proofs.«402991_j19370302505302_3_alg».proof.Proof.Spec
import Idealize.ShloMosaic.Lib.Pipeline.Value
import Idealize.ShloMosaic.Lib.StableHlo.Run
import Idealize.ShloMosaic.Lib.ValueLayout

noncomputable section

namespace Cert.KernelIdeal.Blocks

open Idealize.ShloMosaic Idealize.ShloMosaic.TcCoe Idealize.SL.Sem Idealize.ShloMosaic.StableHlo Idealize.ShloMosaic.ValueIdx
open Cert.KernelIdeal Cert.KernelIdeal.Gen Cert.OscLoss

section AnyFloat

variable {F : FTy → Type} [FloatOps F]

/-- The row of factors as the host builds it. -/
def signRow : FVec F S1x128 .f32 :=
  shapeCast S1x128 (id (select (evenMask Facts₀.bcast_S_S128 (iotaInDim S128 32 0))
        (broadcastInDim S128 ![] Facts₀.bcast_S_S128 (constant S_ .f32 0xBF800000#32))
        (broadcastInDim S128 ![] Facts₀.bcast_S_S128 (constant S_ .f32 0x3F800000#32)))) Facts₀.shapeCasts_S128_S1x128

variable (m : (ℓ : Loc nD τ sig) → Buf (Elt F) ℓ)

/-- The region finds the reshaped argument in its first array … -/
theorem V_v0 (c : Dev nD) : (V m c main_v0 : S262144x128.Idx → F .f32)
    = shapeCast S262144x128 (m ((c : Thread nD τ).loc main_arg0)) Facts₀.shapeCasts_S33554432_S262144x128 := by
  dsimp only [V, V0]
  simp only [hostOps0, hostOps0_1, hostOps0_2, hostOps0_3, hostOps0_4, List.flatten_cons, List.flatten_nil, List.append_nil,
    List.cons_append, List.nil_append]
  after_results
  rfl

/-- … and the row of factors in its second. -/
theorem V_v7 (c : Dev nD) : (V m c main_v7 : S1x128.Idx → F .f32) = signRow := by
  dsimp only [V, V0]
  simp only [hostOps0, hostOps0_1, hostOps0_2, hostOps0_3, hostOps0_4, List.flatten_cons, List.flatten_nil, List.append_nil,
    List.cons_append, List.nil_append]
  after_results_simp
  rfl

end AnyFloat

/-! ## On the extended reals, at an index -/

variable (m : (ℓ : Loc nD τ sig) → Buf (Elt Ideal) ℓ)

/-- The argument array of core `c`'s device, as the loss is stated over it. -/
abbrev argArr (c : Dev nD) : (⟨1, ![33554432]⟩ : Shape).Idx → EReal := m ((c : Thread nD τ).loc main_arg0)

/-- The factor at lane `q`. -/
theorem signRow_apply (u : Fin 1) (q : Fin 128) : signRow (F := Ideal) (ix2 u q) = negSign q.val := by
  have hq : q.val < 128 := q.isLt
  unfold signRow
  rw [shapeCast_a_1a_apply]
  show select _ _ _ (ix1 q) = _
  rw [select_apply, evenMask_apply, iotaInDim_apply, evenBit_ofNat _ (by show q.val < 2 ^ 31; omega),
    broadcastInDim_scalar_apply, broadcastInDim_scalar_apply, constant_apply, constant_apply,
    ofBits_neg_one_f32, Ideal.ofBits_one_f32]
  show Scalar.select (if q.val % 2 = 0 then 1#1 else 0#1) (-1 : EReal) 1 = _
  unfold negSign
  split
  · exact select_one _ _
  · exact select_zero _ _

/-- The reshaped argument at row `R`, lane `q` is the flat argument at position `R * 128 + q`. -/
theorem v0_apply (c : Dev nD) (R : Fin 262144) (q : Fin 128) :
    (V m c main_v0 : S262144x128.Idx → EReal) (ix2 R q) = flat (argArr m c) (R.val * 128 + q.val) := by
  have hR : R.val < 262144 := R.isLt
  have hq : q.val < 128 := q.isLt
  have hlt : R.val * 128 + q.val < 33554432 := by omega
  rw [V_v0, show flat (argArr m c) (R.val * 128 + q.val) = argArr m c (ix1 ⟨R.val * 128 + q.val, hlt⟩) from by
    unfold flat; rw [dif_pos hlt]]
  refine shapeCast_apply _ _ _ _ ?_
  show ((⟨1, ![33554432]⟩ : Shape).rowMajor (ix1 ⟨R.val * 128 + q.val, hlt⟩)).val
    = ((⟨2, ![262144, 128]⟩ : Shape).rowMajor (ix2 R q)).val
  rw [Shape.rowMajor_val_one, Shape.rowMajor_val_two]
  rfl

/-- Window 0's block index at point `t` is `(t, 0)`; window 1's is `(0, 0)`. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The input block at point `t`, row `r`, lane `q`: the flat argument at position `(t * 16384 + r) * 128 + q`. -/
theorem xblk_apply (c : Dev nD) (t : Fin cfg0.N) (r : Fin 16384) (q : Fin 128) :
    (iblk m c 0 t : S16384x128.Idx → EReal) (ix2 r q) = flat (argArr m c) ((t.val * 16384 + r.val) * 128 + q.val) := by
  have hN : t.val < 16 := lt_of_lt_of_eq t.isLt (show cfg0.N = 16 from N_0)
  have hr : r.val < 16384 := r.isLt
  have hR : t.val * 16384 + r.val < 262144 := by omega
  show (V m c main_v0 : S262144x128.Idx → EReal) (((cfg0.win 0).blk t).view.emb (ix2 r q)) = _
  rw [show ((cfg0.win 0).blk t).view.emb (ix2 r q) = (ix2 (⟨t.val * 16384 + r.val, hR⟩ : Fin 262144) q : S262144x128.Idx) from
    funext fun a => Fin.ext (by
      match a with
      | ⟨0, _⟩ => show win0_0.index t 0 * 16384 + 1 * r.val = t.val * 16384 + r.val; rw [(index0 t).1]; omega
      | ⟨1, _⟩ => show win0_0.index t 1 * 128 + 1 * q.val = q.val; rw [(index0 t).2]; omega)]
  exact v0_apply m c ⟨t.val * 16384 + r.val, hR⟩ q

/-- The factor block at any point, lane `q`: the factor of lane `q`. -/
theorem nblk_apply (c : Dev nD) (t : Fin cfg0.N) (u : Fin 1) (q : Fin 128) :
    (iblk m c 1 t : S1x128.Idx → EReal) (ix2 u q) = negSign q.val := by
  have hu : u.val = 0 := by omega
  show (V m c main_v7 : S1x128.Idx → EReal) (((cfg0.win 1).blk t).view.emb (ix2 u q)) = _
  rw [show ((cfg0.win 1).blk t).view.emb (ix2 u q) = (ix2 (0 : Fin 1) q : S1x128.Idx) from
    funext fun a => Fin.ext (by
      match a with
      | ⟨0, _⟩ => show win0_1.index t 0 * 1 + 1 * u.val = 0; rw [(index1 t).1]; omega
      | ⟨1, _⟩ => show win0_1.index t 1 * 128 + 1 * q.val = q.val; rw [(index1 t).2]; omega),
    V_v7]
  exact signRow_apply 0 q

end Cert.KernelIdeal.Blocks

end
-- ==== Proof.KerValue.lean ====
/-
  The kernel program's result, read on the extended reals, is the loss.

  Each core `a` (grid points `8 a … 8 a + 7`) writes its output block once, after its last step: the carried row, which
  by then is the sum of its eight steps' addends. The two blocks tile the `[2, 1, 128]` result array, so the array
  ends holding, at `(a, 0, q)`, the sum over the core's steps `s` of the step's lane sum. The host then sums the array
  from zero. A step's addend at lane `q` is the sum over its block's rows `r` of the contribution of position
  `((8 a + s) * 16384 + r) * 128 + q` — the factor of that position is the factor of its lane —, so the total is the
  loss laid out by core, lane, step and row (Spec).
-/
import proofs.«402991_j19370302505302_3_alg».proof.Proof.KerAcc
import proofs.«402991_j19370302505302_3_alg».proof.Proof.KerBlocks
import Idealize.ShloMosaic.Lib.StableHlo.Run

noncomputable section

namespace Cert.KernelIdeal.Value

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.OscLoss Finset

variable (m : (ℓ : Loc nD τ sig) → Buf (Elt Ideal) ℓ) (ρ : Dev nD → PrngReg)

/-! ## The output block a core's last step stores -/

/-- At the last step of a run the output's staging buffer holds the carried row under a leading unit axis. -/
theorem out_last (c : Dev nD) (t : Fin cfg0.N) (h7 : t.val % 8 = 7) :
    (outsAt0 m c t.val t.isLt).1 = k0_pay3 (Acc.rowAfter m c t.val t.isLt) := by
  have h0 : ¬t.val % 8 = 0 := by omega
  show _ = k0_pay3 (outsAt0 m c t.val t.isLt).2
  rw [outsAt0_C m c t h0 h7]
  dsimp only
  exact (Pieces.out_C (F := Ideal) c (grid0.coords t) (ms0_0 t) (hs0_0 t) (ms0_1 t) (hs0_1 t) (ms0_2 t) (hs0_2 t) scM0_0 (Memref.isWhole_whole _)
      (fun hh => h0 ((hcond0_0 t).mp hh)) ((hcond0_1 t).mpr h7) (iblk m c 0 t) (iblk m c 1 t)
      (outsAt0 m c (t.val - 1) (Nat.lt_of_le_of_lt (Nat.sub_le _ _) t.isLt)).2).trans
    (congrArg k0_pay3 (Pieces.acc_C (F := Ideal) c (grid0.coords t) (ms0_0 t) (hs0_0 t) (ms0_1 t) (hs0_1 t) (ms0_2 t) (hs0_2 t) scM0_0 (Memref.isWhole_whole _)
      (fun hh => h0 ((hcond0_0 t).mp hh)) ((hcond0_1 t).mpr h7) (iblk m c 0 t) (iblk m c 1 t)
      (outsAt0 m c (t.val - 1) (Nat.lt_of_le_of_lt (Nat.sub_le _ _) t.isLt)).2).symm)

/-! ## The result array -/

/-- The lane of an index of the result array, and of the output block. -/
def olane (o : S2x1x128.Idx) : Fin 128 := o 2
def blane (j : S1x1x128.Idx) : Fin 128 := j 2

/-- What the result array ends holding: at core `a`, lane `q`, the sum of the core's eight steps' addends. -/
def outArr (c : Dev nD) : S2x1x128.Idx → EReal :=
  fun o => 0 + ∑ s ∈ range 8, Acc.addend m c (8 * (o 0).val + s) (olane o)

/-- The output block at an index is the carried row at the index's lane. -/
theorem pay3_at (v : Vec Ideal S1x128 .f32) (j : S1x1x128.Idx) : k0_pay3 v j = v (ix2 (0 : Fin 1) (blane j)) := by
  obtain ⟨a, b, q, rfl⟩ : ∃ (a b : Fin 1) (q : Fin 128), j = ix3 a b q := ⟨j 0, j 1, j 2, eq_ix3 j⟩
  exact Pay.pay3_apply v a b q

/-- Output window's block index at point `t`: core `t / 8` on the first axis, zero on the others. -/
theorem index2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)

/-- What a writing point writes back is its block of `outArr`. -/
theorem flushed_eq (c : Dev nD) (t : Fin cfg0.N) (hf : (cfg0.win 2).flush t = true) :
    (dats m 0 c).flushed 2 t = ((cfg0.win 2).blk t).view.read (Elt Ideal) (outArr m c) := by
  have h7 : t.val % 8 = 7 := (flush0_2 t).mp hf
  obtain ⟨e0, e1, e2⟩ := index2 t
  show (cfg0.win 2).cut (grid0.coords t) ((dats m 0 c).after 2 t) = _
  rw [after0_2, out_last m c t h7]
  funext j
  show (k0_pay3 (Acc.rowAfter m c t.val t.isLt) : S1x1x128.Idx → EReal) j = outArr m c (((cfg0.win 2).blk t).view.emb j)
  have hj0 : (j 0).val < 1 := (j 0).isLt
  have hcore : ((((cfg0.win 2).blk t).view.emb j : S2x1x128.Idx) 0).val = t.val / 8 := by
    show win0_2.index t (0 : Fin 3) * 1 + 1 * (j 0).val = t.val / 8
    omega
  have hlane : olane (((cfg0.win 2).blk t).view.emb j) = blane j := Fin.ext (by
    show win0_2.index t (2 : Fin 3) * 128 + 1 * (j 2).val = (j 2).val
    omega)
  rw [pay3_at, Acc.rowAfter_apply, Acc.lane_ix2]
  unfold outArr
  rw [hcore, hlane, h7]

/-- An index of the result array is in point `t`'s block iff each coordinate is in the block's range. -/
theorem mem_blk (t : Fin cfg0.N) (i : S2x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v8).slice (win0_2.rect t)).set ↔ _
  rw [View.set_slice_whole, Rect.mem_set_unit]
  exact Iff.rfl

/-- Every index of the result array is in the block of its core's last step, which writes back. -/
theorem cover (i : S2x1x128.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 128 := (i 2).isLt
  have hlt : 8 * (i 0).val + 7 < cfg0.N := lt_of_lt_of_eq (by omega : 8 * (i 0).val + 7 < 16) N_0.symm
  refine ⟨⟨8 * (i 0).val + 7, hlt⟩, (flush0_2 _).mpr (by show (8 * (i 0).val + 7) % 8 = 7; omega), ?_⟩
  rw [mem_blk]
  obtain ⟨e0, e1, e2⟩ := index2 ⟨8 * (i 0).val + 7, hlt⟩
  have e0' : win0_2.index ⟨8 * (i 0).val + 7, hlt⟩ (0 : Fin 3) = (8 * (i 0).val + 7) / 8 := e0
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 128 ≤ (i 2).val ∧ (i 2).val < win0_2.index _ (2 : Fin 3) * 128 + 128; omega

/-- The result array after the run. -/
theorem final (c : Dev nD) : (dats m 0 c).arrAt 2 cfg0.N = outArr m c :=
  (dats m 0 c).arrAt_eq_of_cover 2 (outArr m c) (flushed_eq m c) cover

/-! ## The total is the loss -/

/-- A step's addend at lane `q` is the sum over its block's rows of the positions' contributions. -/
theorem addend_eq (c : Dev nD) (n : ℕ) (hn : n < 16) (q : Fin 128) :
    Acc.addend m c n q = ∑ r ∈ range 16384, contrib (flat (Blocks.argArr m c)) ((n * 16384 + r) * 128 + q.val) := by
  have h : n < cfg0.N := lt_of_lt_of_eq hn (N_0).symm
  unfold Acc.addend
  rw [dif_pos h, Finset.sum_range (fun r => contrib (flat (Blocks.argArr m c)) ((n * 16384 + r) * 128 + q.val))]
  refine Fintype.sum_congr _ _ fun r => ?_
  rw [show Acc.xblk m c n h (ix2 r q) = flat (Blocks.argArr m c) ((n * 16384 + r.val) * 128 + q.val) from
      Blocks.xblk_apply m c ⟨n, h⟩ r q,
    show Acc.nblk m c n h (ix2 (0 : Fin 1) q) = negSign q.val from Blocks.nblk_apply m c ⟨n, h⟩ 0 q]
  unfold contrib
  rw [negSign_lane]

/-- The result array's total is the loss of the argument array. -/
theorem sum_outArr (c : Dev nD) : ∑ o : S2x1x128.Idx, outArr m c o = lossOf (flat (Blocks.argArr m c)) := by
  rw [lossOf_layout, sum_idx3,
    Finset.sum_range (fun a => ∑ q ∈ range 128, ∑ s ∈ range 8, ∑ r ∈ range 16384,
      contrib (flat (Blocks.argArr m c)) (((a * 8 + s) * 16384 + r) * 128 + q))]
  refine Fintype.sum_congr _ _ fun a => ?_
  rw [Fin.sum_univ_one,
    Finset.sum_range (fun q => ∑ s ∈ range 8, ∑ r ∈ range 16384,
      contrib (flat (Blocks.argArr m c)) (((a.val * 8 + s) * 16384 + r) * 128 + q))]
  refine Fintype.sum_congr _ _ fun q => ?_
  have ha : a.val < 2 := a.isLt
  show (0 : EReal) + ∑ s ∈ range 8, Acc.addend m c (8 * a.val + s) q = _
  rw [zero_add]
  refine Finset.sum_congr rfl fun s hs => ?_
  have hs' : s < 8 := Finset.mem_range.mp hs
  rw [addend_eq m c (8 * a.val + s) (by omega) q, Nat.mul_comm 8 a.val]

/-! ## The host tail and the run -/

/-- After the region the host sums the result array from zero: the program's result is the loss. -/
theorem tail_eq (c : Dev nD) :
    Pipeline.afterTail₀ cfgs (dats m) 0 (V0 m) [hostOps1] c main_v9 = fun _ => lossOf (flat (Blocks.argArr m c)) := by
  unfold Pipeline.afterTail₀
  show StableHlo.after hostOps1 _ (Proc.devRef .tc main_v9) = _
  after_results
  rw [show Pipeline.withArrays spec0 c (V0 m c) (fun w => (dats m 0 c).arrAt w cfg0.N) (Proc.devRef .tc main_v8) = outArr m c from
    (Pipeline.withArrays_arr spec0 launch0.win.arr_inj c _ _ 2).trans (final m c)]
  funext j
  rw [hostReduceAdd_apply, Ideal.hostReduceAdd_total _ (fun b => b.elim0), constant_apply, Ideal.ofBits_zero_f32, zero_add]
  exact sum_outArr m c

/-- Every weakly fair execution of the kernel program terminates with the result at the loss of the argument
    array and the argument unchanged. -/
theorem run : θ_run defs (onTc (τ := τ) (main (F := Ideal))) ⟨m, fun _ => 0, ρ⟩ fun r => ∀ c : Dev nD,
      r.2.mem ((c.tc : Thread nD τ).loc main_v9) = (fun _ => lossOf (flat (Blocks.argArr m c)))
      ∧ r.2.mem ((c.tc : Thread nD τ).loc main_arg0) = m ((c.tc : Thread nD τ).loc main_arg0) :=
  (θ_run defs _ _).mono (fun _ h c =>
      ⟨((h c).2 main_v9 (Pipeline.mem_restRefs_of main_v9 (by decide) (by decide))).trans (tail_eq m c),
       ((h c).2 main_arg0 (Pipeline.mem_restRefs_of main_arg0 (by decide) (by decide))).trans (W_main_arg0 m (dats m) c)⟩)
    (run_main m ρ)

end Cert.KernelIdeal.Value

end
-- ==== Proof.RefRun.lean ====
/-
  The reference program's run, read back.

  The reference is a straight line of host operations once the functions `jnp` outlined (`remainder`, and the two
  `where`s) are unfolded at their calls: thirty-nine operations, each writing one buffer of its own. Every weakly fair
  execution therefore terminates with each buffer at the composition of the operations that feed it: the result is the
  host sum, from zero, of `max (-(sign · x)) 0` where `sign` selects `1` on the mask "position is even" and `-1` elsewhere;
  the argument is untouched.
-/
import proofs.«402991_j19370302505302_3_alg».proof.Proof.Gen.ReferenceIdeal
import proofs.«402991_j19370302505302_3_alg».proof.Proof.ParityVec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.OscLoss

variable {F : FTy → Type} [FloatOps F]

/-- The reference's result as one function of the argument array: the sign array from the parity mask of the
    positions, the product, its negation, the maximum with zero, the sum from zero. -/
def refOut (x : FVec F S33554432 .f32) : FVec F S_ .f32 :=
  let sign : FVec F S33554432 .f32 :=
    id (select (evenMask bcast_S_S33554432 (iotaInDim S33554432 32 0))
      (broadcastInDim S33554432 ![] bcast_S_S33554432 (constant S_ .f32 0x3F800000#32))
      (broadcastInDim S33554432 ![] bcast_S_S33554432 (constant S_ .f32 0xBF800000#32)))
  Host.reduceAdd
    (maximumf (Host.negf (mulf sign x)) (broadcastInDim S33554432 ![] bcast_S_S33554432 (constant S_ .f32 0x00000000#32)))
    (constant S_ .f32 0x00000000#32) reducesTo_S33554432_S_d0 h_S_

/-- @main's operations in order, the calls unfolded: the positions and the divisor; `remainder`'s twenty-one
    (with `where`'s select inside it); the zero, its broadcast, the comparison; the two signs; `where`'s three;
    the conversion, product, negation, zero, broadcast, maximum, zero and the sum. -/
abbrev ops : List (HloOp τ sig (Elt F)) :=
  [ nullary main_v0 (iotaInDim S33554432 32 0),
    nullary main_c (constantI S_ 32 2#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S33554432 ![] bcast_S_S33554432),
    TRef.binary (.of main_v0 : TRef sig ⟨S33554432, .i32⟩) main_call0.v3 main_call0.v4 Host.remsi,
    TRef.nullary main_call0.c_1 (constantI S_ 32 0#32),
    TRef.unary main_call0.c_1 main_call0.v5 (broadcastInDim S33554432 ![] bcast_S_S33554432),
    TRef.binary main_call0.v4 main_call0.v5 main_call0.v6 (cmpi .ne),
    TRef.nullary main_call0.c_2 (constantI S_ 32 0#32),
    TRef.unary main_call0.c_2 main_call0.v7 (broadcastInDim S33554432 ![] bcast_S_S33554432),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S33554432 ![] bcast_S_S33554432),
    TRef.binary main_call0.v8 main_call0.v10 main_call0.v11 (cmpi .ne),
    TRef.binary main_call0.v11 main_call0.v6 main_call0.v12 andi,
    TRef.unary main_call0.call0.v0 main_call0.v13 (broadcastInDim S33554432 ![] bcast_S_S33554432),
    TRef.binary main_call0.v4 main_call0.v13 main_call0.v14 addi,
    TRef.ternary main_call0.v12 main_call0.v14 main_call0.v4 main_call0.v15 select,
    nullary main_c_0 (constantI S_ 32 0#32),
    unary main_c_0 main_v2 (broadcastInDim S33554432 ![] bcast_S_S33554432 : (⟨S_, .i32⟩ : BufTy).Contents (Elt F) → (⟨S33554432, .i32⟩ : BufTy).Contents (Elt F)),
    binary main_v1 main_v2 main_v3 (cmpi .eq : (⟨S33554432, .i32⟩ : BufTy).Contents (Elt F) → (⟨S33554432, .i32⟩ : BufTy).Contents (Elt F) → (⟨S33554432, .i1⟩ : BufTy).Contents (Elt F)),
    nullary main_cst (constant S_ .f32 0x3F800000#32),
    nullary main_cst_1 (constant S_ .f32 0xBF800000#32),
    TRef.unary (.of main_cst : TRef sig ⟨S_, .f32⟩) main_call1.v0 (broadcastInDim S33554432 ![] bcast_S_S33554432),
    TRef.unary (.of main_cst_1 : TRef sig ⟨S_, .f32⟩) main_call1.v1 (broadcastInDim S33554432 ![] bcast_S_S33554432),
    TRef.ternary (.of main_v3 : TRef sig ⟨S33554432, .i1⟩) main_call1.v0 main_call1.v1 main_call1.v2 select,
    unary main_v4 main_v5 (id : (⟨S33554432, .f32⟩ : BufTy).Contents (Elt F) → (⟨S33554432, .f32⟩ : BufTy).Contents (Elt F)),
    binary main_v5 main_arg0 main_v6 (mulf : (⟨S33554432, .f32⟩ : BufTy).Contents (Elt F) → (⟨S33554432, .f32⟩ : BufTy).Contents (Elt F) → (⟨S33554432, .f32⟩ : BufTy).Contents (Elt F)),
    unary main_v6 main_v7 (Host.negf : (⟨S33554432, .f32⟩ : BufTy).Contents (Elt F) → (⟨S33554432, .f32⟩ : BufTy).Contents (Elt F)),
    nullary main_cst_2 (constant S_ .f32 0x00000000#32),
    unary main_cst_2 main_v8 (broadcastInDim S33554432 ![] bcast_S_S33554432 : (⟨S_, .f32⟩ : BufTy).Contents (Elt F) → (⟨S33554432, .f32⟩ : BufTy).Contents (Elt F)),
    binary main_v7 main_v8 main_v9 (maximumf : (⟨S33554432, .f32⟩ : BufTy).Contents (Elt F) → (⟨S33554432, .f32⟩ : BufTy).Contents (Elt F) → (⟨S33554432, .f32⟩ : BufTy).Contents (Elt F)),
    nullary main_cst_3 (constant S_ .f32 0x00000000#32),
    binary main_v9 main_cst_3 main_v10 ((fun x v => Host.reduceAdd x v reducesTo_S33554432_S_d0 h_S_) : (⟨S33554432, .f32⟩ : BufTy).Contents (Elt F) → (⟨S_, .f32⟩ : BufTy).Contents (Elt F) → (⟨S_, .f32⟩ : BufTy).Contents (Elt F)) ]

-- thirty-nine binds re-associated: the rewrite under the chain recurses once per statement
set_option maxRecDepth 2048 in
/-- @main is that straight line: the functions unfolded at their calls, the records at their fields, and the
    sequencing re-associated. -/
theorem main_eq (c : Dev nD) : main (F := F) c = seq ops := by
  simp only [main, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub ..,
    nullary_bufs_sub .., unary_bufs_sub .., binary_bufs_sub .., nullary_bufs_sub .., nullary_bufs_sub ..,
    unary_bufs_sub .., unary_bufs_sub .., ternary_bufs_sub ..,
    unary_bufs_sub .., binary_bufs_sub .., unary_bufs_sub .., nullary_bufs_sub .., unary_bufs_sub .., binary_bufs_sub ..,
    nullary_bufs_sub .., binary_bufs_sub ..⟩

/-- The result buffer after the operations holds `refOut` of the argument's contents: each operation's result read
    at its own buffer, every other buffer left alone. -/
theorem out_eq (V : Valuation τ sig (Elt F)) :
    after ops V (Proc.devRef .tc main_v10) = refOut (V (Proc.devRef .tc main_arg0)) := by
  after_results_simp
  rfl

/-- No operation writes the argument. -/
theorem arg0_eq (V : Valuation τ sig (Elt F)) :
    after ops V (Proc.devRef .tc main_arg0) = V (Proc.devRef .tc main_arg0) := by
  after_results_simp

/-- On every device, from any memory with zero counters: every weakly fair execution of @main terminates with the
    result at `refOut` of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v10).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefValue.lean ====
/-
  The reference's result, read on the extended reals, is the loss.

  The host sum over every position, from zero, is the plain sum of its operand over the index set; at a position
  the operand is `max (-(sign * x)) 0` with `sign` selected by the parity mask of the position word, which for a
  position below `2 ^ 31` is set exactly at the even positions. That is the position's contribution (Spec).
-/
import proofs.«402991_j19370302505302_3_alg».proof.Proof.RefRun
import proofs.«402991_j19370302505302_3_alg».proof.Proof.Spec

noncomputable section

namespace Cert.ReferenceIdeal.RefValue

open Cert.ReferenceIdeal Cert.ReferenceIdeal.Gen Idealize.ShloMosaic Idealize.ShloMosaic.ValueIdx
open Cert.OscLoss

/-- The sign the reference selects at position index `i`: `1` where the position is even, `-1` elsewhere. -/
theorem sign_apply (i : S33554432.Idx) :
    select (evenMask bcast_S_S33554432 (iotaInDim S33554432 32 0))
      (broadcastInDim S33554432 ![] bcast_S_S33554432 (constant (F := Ideal) S_ .f32 0x3F800000#32))
      (broadcastInDim S33554432 ![] bcast_S_S33554432 (constant (F := Ideal) S_ .f32 0xBF800000#32)) i
      = if (i 0).val % 2 = 0 then (1 : EReal) else -1 := by
  have hi : (i 0).val < 33554432 := (i 0).isLt
  rw [select_apply, evenMask_apply, iotaInDim_apply, evenBit_ofNat _ (by omega),
    broadcastInDim_scalar_apply, broadcastInDim_scalar_apply, constant_apply, constant_apply,
    Ideal.ofBits_one_f32, ofBits_neg_one_f32]
  split
  · exact select_one _ _
  · exact select_zero _ _

/-- The reference's result is the loss of the argument array. -/
theorem refOut_eq (x : FVec Ideal S33554432 .f32) :
    RefRun.refOut (F := Ideal) x = fun _ => lossOf (flat x) := by
  funext j
  unfold RefRun.refOut
  rw [hostReduceAdd_apply, Ideal.hostReduceAdd_total _ (fun b => b.elim0), constant_apply, Ideal.ofBits_zero_f32,
    zero_add, ← sum_idx_contrib]
  refine Fintype.sum_congr _ _ fun i => ?_
  rw [maximumf_apply, broadcastInDim_scalar_apply, constant_apply, Ideal.ofBits_zero_f32]
  show max (-(_ * x i)) 0 = _
  rw [show (id (select (evenMask bcast_S_S33554432 (iotaInDim S33554432 32 0))
      (broadcastInDim S33554432 ![] bcast_S_S33554432 (constant (F := Ideal) S_ .f32 0x3F800000#32))
      (broadcastInDim S33554432 ![] bcast_S_S33554432 (constant (F := Ideal) S_ .f32 0xBF800000#32))) i)
      = if (i 0).val % 2 = 0 then (1 : EReal) else -1 from sign_apply i]
  exact contrib_eq_neg_sign_mul (x i) (i 0).val

end Cert.ReferenceIdeal.RefValue

end
-- ==== Proof.lean ====
/-
  The oscillation loss: `loss = Σ_n max (x n * negSign n) 0` over the `2 ^ 25` positions of `x`, with `negSign n = -1` at
  even `n` and `1` at odd `n`.

  The kernel program reshapes `x` to `[262144, 128]`, builds the row of 128 factors (a position's parity is its
  lane's, 128 being even), and runs a `2 × 8` grid: core `a` at step `s` takes rows `(8 a + s) * 16384 …`, multiplies by
  the factor row, takes the maximum with zero, sums over the rows and adds the lane sums into a carried row that it
  reset at its first step; after its last step it writes the row to `out[a, 0, :]`, and the host sums the
  `[2, 1, 128]` result from zero. The reference selects `sign n = 1` at even positions and `-1` at odd ones and sums
  `max (-(sign n * x n)) 0` over all positions from zero.

  On the extended reals the two agree for every input: `-(1 * x) = x * -1` and `-(-1 * x) = x * 1` hold there, and the
  kernel's total is the same family of contributions summed in another order, which addition's commutativity and
  associativity allow; no finiteness of the input is used. The ideal pass rewrote nothing, so the kernel's
  idealization is its own text. Both kernel programs' frames are the generated ones; the reference's frame is its
  run with the value dropped.
-/
import proofs.«402991_j19370302505302_3_alg».proof.Defs
import proofs.«402991_j19370302505302_3_alg».proof.Proof.Gen.Kernel
import proofs.«402991_j19370302505302_3_alg».proof.Proof.Gen.Kernel.Skeleton
import proofs.«402991_j19370302505302_3_alg».proof.Proof.Gen.Kernel.Launch
import proofs.«402991_j19370302505302_3_alg».proof.Proof.Gen.Kernel.Points
import proofs.«402991_j19370302505302_3_alg».proof.Proof.Gen.Kernel.Frame
import proofs.«402991_j19370302505302_3_alg».proof.Proof.Gen.KernelIdeal
import proofs.«402991_j19370302505302_3_alg».proof.Proof.Gen.KernelIdeal.Skeleton
import proofs.«402991_j19370302505302_3_alg».proof.Proof.Gen.KernelIdeal.Launch
import proofs.«402991_j19370302505302_3_alg».proof.Proof.Gen.KernelIdeal.Points
import proofs.«402991_j19370302505302_3_alg».proof.Proof.Gen.KernelIdeal.Frame
import proofs.«402991_j19370302505302_3_alg».proof.Proof.Gen.ReferenceIdeal
import proofs.«402991_j19370302505302_3_alg».proof.Proof.Gen.Pre_finite_inputs
import Idealize.ShloMosaic.Adequacy
import Idealize.ShloMosaic.Init
import proofs.«402991_j19370302505302_3_alg».proof.Proof.KerValue
import proofs.«402991_j19370302505302_3_alg».proof.Proof.RefValue

noncomputable section

namespace Cert.Proof

open Idealize.ShloMosaic Idealize.SL.Sem Cert.OscLoss

theorem frame_kernel : Cert.frame_Kernel := fun m ρ _ => Cert.Kernel.Gen.frame m ρ

theorem frame_kernelIdeal : Cert.frame_KernelIdeal := fun m ρ _ => Cert.KernelIdeal.Gen.frame m ρ

/-- The reference's run terminates without a fault and leaves the argument as it was. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both idealized programs end at the loss of the argument array they were started on, and they were started on
    the same array. -/
theorem algebraic : Cert.algebraic_KernelIdeal_ReferenceIdeal := by
  intro m ρ m' ρ' _ hagree
  refine ⟨fun c => fun _ => lossOf (flat (Cert.KernelIdeal.Blocks.argArr m c)), Cert.KernelIdeal.Value.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
